-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S512x8x1024 : Shape := ⟨3, ![512, 8, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x8x1024 : S_.BroadcastsInDim S512x8x1024 (![] : Fin 0 → Fin S512x8x1024.rank)
  reducesTo_S512x8x1024_S_d0_1_2 : S512x8x1024.ReducesTo [0, 1, 2] S_

variable [Facts]

def fn {F : FTy → Type} [FloatOps F] (main_arg0 : FVec F S4096x1024 .f32) (main_arg1 : FVec F S512x8x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S512x8x1024 .f32 := Host.absf main_arg1
  let main_cst_0 : FVec F S_ .f32 := constant S_ .f32 0x7F800000#32
  let main_v5 : FVec F S512x8x1024 .f32 := broadcastInDim S512x8x1024 ![] bcast_S_S512x8x1024 main_cst_0
  let main_v6 : IVec S512x8x1024 1 := cmpf .olt main_v4 main_v5
  let main_c_1 : IVec S_ 1 := constantI S_ 1 1#1
  let main_v7 : IVec S_ 1 := (fun x v => Host.reduce IntOp.andi x v reducesTo_S512x8x1024_S_d0_1_2 h_S_) main_v6 main_c_1
  let main_v8 : IVec S_ 1 := andi main_v3 main_v7
  main_v8
-- ==== Kernel.lean ====
abbrev S4096x1024 : Shape := ⟨2, ![4096, 1024]⟩
abbrev S512x8x1024 : Shape := ⟨3, ![512, 8, 1024]⟩
abbrev S8x512x1024 : Shape := ⟨3, ![8, 512, 1024]⟩
abbrev S4096x512 : Shape := ⟨2, ![4096, 512]⟩
abbrev S512x1024 : Shape := ⟨2, ![512, 1024]⟩
abbrev S8x256x1024 : Shape := ⟨3, ![8, 256, 1024]⟩
abbrev S512x256 : Shape := ⟨2, ![512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S256 : Shape := ⟨1, ![256]⟩
abbrev S1x256 : Shape := ⟨2, ![1, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S512x8x1024, .f32⟩
  | .hbm, ⟨2, _⟩ => ⟨S8x512x1024, .f32⟩
  | .hbm, ⟨3, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S8x256x1024, .f32⟩
  | .local _ .vmem, ⟨3, _⟩ => ⟨S8x256x1024, .f32⟩
  | .local _ .vmem, ⟨4, _⟩ => ⟨S512x256, .f32⟩
  | .local _ .vmem, ⟨5, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S512x8x1024_S8x512x1024_1_0_2 : S512x8x1024.Transposes [1, 0, 2] S8x512x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  bitsLt_bf16_f32 : FTy.bits .bf16 < FTy.bits .f32
  inb_S8x256x1024_S1x256x1024_0_0_0 : ∀ a, (![0, 0, 0] : Fin 3 → Nat) a + S1x256x1024.size a ≤ S8x256x1024.size a
  h_S1x256x1024 : 0 < S1x256x1024.numel
  shapeCasts_S1x256x1024_S256x1024 : S1x256x1024.ShapeCasts S256x1024
  reduces_S256x1024_S256 : S256x1024.Reduces [1] S256
  shapeCasts_S256_S1x256 : S256.ShapeCasts S1x256
  transposes_S256x1024_p1_0_S1024x256 : S256x1024.Transposes [1, 0] S1024x256
  broadcasts_S512x1_S512x256 : S512x1.Broadcasts S512x256
  broadcasts_S1x256_S512x256 : S1x256.Broadcasts S512x256
  inb_S8x256x1024_S1x256x1024_1_0_0 : ∀ a, (![1, 0, 0] : Fin 3 → Nat) a + S1x256x1024.size a ≤ S8x256x1024.size a
  inb_S8x256x1024_S1x256x1024_2_0_0 : ∀ a, (![2, 0, 0] : Fin 3 → Nat) a + S1x256x1024.size a ≤ S8x256x1024.size a
  inb_S8x256x1024_S1x256x1024_3_0_0 : ∀ a, (![3, 0, 0] : Fin 3 → Nat) a + S1x256x1024.size a ≤ S8x256x1024.size a
  inb_S8x256x1024_S1x256x1024_4_0_0 : ∀ a, (![4, 0, 0] : Fin 3 → Nat) a + S1x256x1024.size a ≤ S8x256x1024.size a
  inb_S8x256x1024_S1x256x1024_5_0_0 : ∀ a, (![5, 0, 0] : Fin 3 → Nat) a + S1x256x1024.size a ≤ S8x256x1024.size a
  inb_S8x256x1024_S1x256x1024_6_0_0 : ∀ a, (![6, 0, 0] : Fin 3 → Nat) a + S1x256x1024.size a ≤ S8x256x1024.size a
  inb_S8x256x1024_S1x256x1024_7_0_0 : ∀ a, (![7, 0, 0] : Fin 3 → Nat) a + S1x256x1024.size a ≤ S8x256x1024.size a
  inb_S512x256_S512x256_0_0 : ∀ a, (![0, 0] : Fin 2 → Nat) a + S512x256.size a ≤ S512x256.size a
  h_S512x256 : 0 < S512x256.numel
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1024.size a ≤ S8x512x1024.size a
  hwx0_1 : ∀ i : grid0.Coords, EltTy.bits .f32 = 32 ∨ (Rect.block (s := S8x512x1024) S8x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x512.size a
  hwx0_2 : ∀ i : grid0.Coords, EltTy.bits .f32 = 32 ∨ (Rect.block (s := S4096x512) S512x256.size (cc0_transform_2 i) (hinb0_2 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S512x8x1024 : Shape := ⟨3, ![512, 8, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1024x4096 : Shape := ⟨2, ![1024, 4096]⟩
abbrev S4096x4096 : Shape := ⟨2, ![4096, 4096]⟩
abbrev S4096x512x8 : Shape := ⟨3, ![4096, 512, 8]⟩
abbrev S4096x512 : Shape := ⟨2, ![4096, 512]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x8x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S1024x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x512x8, .f32⟩
  | .hbm, ⟨26, _⟩ => ⟨S_, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S512x8x1024_S4096x1024 : S512x8x1024.ShapeCasts S4096x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  transposes_S4096x1024_S1024x4096_1_0 : S4096x1024.Transposes [1, 0] S1024x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  shapeCasts_S4096x4096_S4096x512x8 : S4096x4096.ShapeCasts S4096x512x8
  reducesTo_S4096x512x8_S4096x512_d2 : S4096x512x8.ReducesTo [2] S4096x512
  bcast_S_S4096x512 : S_.BroadcastsInDim S4096x512 (![] : Fin 0 → Fin S4096x512.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The value both programs compute, written once over the extended reals.

  For a batch row `b` and an output unit `o` with its eight centres `c₀ … c₇` (rows of 1024 numbers each), put
  `p_d = exp (((∑ₖ x_b,k² − 2 · ∑ₖ x_b,k · c_d,k) + ∑ₖ c_d,k²) · (−½))`, the Gaussian weight of the squared distance
  from the row to the centre `c_d`, expanded as `‖x‖² − 2 x·c + ‖c‖²`. The result at `(b, o)` is
  `(max_d p_d · 9 − ∑_d p_d) · ⅛`.

  One side folds the maximum and the sum over the eight centres from the left, scales the exponent by the word of
  `−½` and the result by the word of `⅛`; the other folds a maximum from `−∞` and a sum from `0` over the centre axis,
  negates and divides the exponent by `2`, and divides the result by `8`. On the extended reals a maximum from `⊥`
  and a sum from `0` are the left folds (both operations are commutative and associative with those neutral
  elements, at the infinities too), a quotient by a nonzero real is the product with its reciprocal, and
  `(−y) · ½ = y · (−½)`: none of this needs the inputs finite.
-/
import Idealize.ShloMosaic.PureOps.Ideal
import Idealize.ShloMosaic.PureOps.Ideal.Laws
import Idealize.ShloMosaic.Lib.ValueIdx

noncomputable section

namespace Cert.Mixture

open Idealize.ShloMosaic Idealize.ShloMosaic.ValueIdx

/-! ## The words the two programs spell, as the numbers they denote -/

/-- The word of `2.0` denotes the real `2`. -/
theorem ofBits_two : Ideal.ofBits .f32 0x40000000#32 = ((2 : ℝ) : EReal) := by
  simp [Ideal.ofBits, Ideal.ieee, -EReal.coe_mul]; norm_num

/-- The word of `8.0` denotes the real `8`. -/
theorem ofBits_eight : Ideal.ofBits .f32 0x41000000#32 = ((8 : ℝ) : EReal) := by
  simp [Ideal.ofBits, Ideal.ieee, -EReal.coe_mul]; norm_num

/-- The word of `0.125` denotes the real `1/8`. -/
theorem ofBits_eighth : Ideal.ofBits .f32 0x3E000000#32 = ((1 / 8 : ℝ) : EReal) := by
  simp [Ideal.ofBits, Ideal.ieee, -EReal.coe_mul]; norm_num

/-- The word of `-0.5` denotes the real `-(1/2)`. -/
theorem ofBits_negHalf : Ideal.ofBits .f32 0xBF000000#32 = ((-(1 / 2) : ℝ) : EReal) := by
  simp [Ideal.ofBits, Ideal.ieee, -EReal.coe_mul, -EReal.coe_neg]; norm_num

/-- The word `0xFF800000` denotes `−∞`. -/
theorem ofBits_negInf : Ideal.ofBits .f32 0xFF800000#32 = (⊥ : EReal) := by
  simp [Ideal.ofBits, Ideal.ieee]

/-! ## The weight of one centre and the mixture of eight -/

/-- The Gaussian weight of a row `xr` against a centre `cr`: `exp ((‖xr‖² − 2 · xr·cr + ‖cr‖²) · (−½))`, the squared
    distance expanded, the words of `2` and `−½` kept as words. -/
def weight (xr cr : Fin 1024 → EReal) : EReal :=
  Ideal.exp (((∑ k : Fin 1024, xr k * xr k) - Ideal.ofBits .f32 0x40000000#32 * (∑ k : Fin 1024, xr k * cr k)
    + ∑ k : Fin 1024, cr k * cr k) * Ideal.ofBits .f32 0xBF000000#32)

/-- The maximum of eight numbers, folded from the left. -/
def max8 (f : Fin 8 → EReal) : EReal :=
  max (max (max (max (max (max (max (f 0) (f 1)) (f 2)) (f 3)) (f 4)) (f 5)) (f 6)) (f 7)

/-- The sum of eight numbers, folded from the left. -/
def sum8 (f : Fin 8 → EReal) : EReal :=
  f 0 + f 1 + f 2 + f 3 + f 4 + f 5 + f 6 + f 7

/-- The mixture of eight weights: nine times the largest, less their sum, over eight (the word of `⅛` as a factor). -/
def mix (f : Fin 8 → EReal) : EReal :=
  (max8 f * Ideal.ofBits .f32 0x41100000#32 - sum8 f) * Ideal.ofBits .f32 0x3E000000#32

/-- THE RESULT, index by index: at `(b, o)` the mixture of the weights of row `b` of `x` against the eight centres
    `centers[o, d, ·]`. -/
def result (x : (⟨2, ![4096, 1024]⟩ : Shape).Idx → EReal) (cen : (⟨3, ![512, 8, 1024]⟩ : Shape).Idx → EReal) :
    (⟨2, ![4096, 512]⟩ : Shape).Idx → EReal :=
  fun i => mix fun d => weight (fun k => x (ix2 (i 0) k)) (fun k => cen (ix3 (i 1) d k))

/-! ## The other spelling of the same numbers -/

/-- Negating and dividing by the word of `2` is scaling by the word of `−½`, at every extended real. -/
theorem neg_div_two (y : EReal) :
    Ideal.div (-y) (Ideal.ofBits .f32 0x40000000#32) = y * Ideal.ofBits .f32 0xBF000000#32 := by
  rw [ofBits_two, ofBits_negHalf, Ideal.div_coe (by norm_num : (2 : ℝ) ≠ 0), EReal.coe_neg, EReal.neg_mul, mul_neg]

/-- Dividing by the word of `8` is scaling by the word of `⅛`, at every extended real. -/
theorem div_eight (y : EReal) :
    Ideal.div y (Ideal.ofBits .f32 0x41000000#32) = y * Ideal.ofBits .f32 0x3E000000#32 := by
  rw [ofBits_eight, ofBits_eighth, Ideal.div_coe (by norm_num : (8 : ℝ) ≠ 0)]

/-- The weight in the other spelling: the two sums of squares taken from the word of `0`, the exponent negated and
    divided by the word of `2`. -/
theorem weight_of_neg_div (xr cr : Fin 1024 → EReal) :
    Ideal.exp (Ideal.div (-((Ideal.ofBits .f32 0x00000000#32 + ∑ k : Fin 1024, xr k * xr k)
        - Ideal.ofBits .f32 0x40000000#32 * (∑ k : Fin 1024, xr k * cr k)
        + (Ideal.ofBits .f32 0x00000000#32 + ∑ k : Fin 1024, cr k * cr k))) (Ideal.ofBits .f32 0x40000000#32))
      = weight xr cr := by
  rw [neg_div_two, Ideal.ofBits_zero_f32, zero_add, zero_add]; rfl

/-- A maximum over the eight centres taken from `−∞` is the left fold. -/
theorem fold_max8 (f : Fin 8 → EReal) :
    (Finset.univ : Finset (Fin 8)).fold max (Ideal.ofBits .f32 0xFF800000#32) f = max8 f := by
  rw [ofBits_negInf]
  apply le_antisymm
  · rw [Finset.fold_max_le]
    refine ⟨bot_le, fun d _ => ?_⟩
    unfold max8
    fin_cases d <;> simp [le_max_iff]
  · unfold max8
    have h : ∀ d : Fin 8, f d ≤ (Finset.univ : Finset (Fin 8)).fold max ⊥ f := fun d =>
      (Finset.le_fold_max _).mpr (Or.inr ⟨d, Finset.mem_univ d, le_rfl⟩)
    exact max_le (max_le (max_le (max_le (max_le (max_le (max_le (h 0) (h 1)) (h 2)) (h 3)) (h 4)) (h 5)) (h 6)) (h 7)

/-- A sum over the eight centres taken from the word of `0` is the left fold. -/
theorem sum_eq_sum8 (f : Fin 8 → EReal) :
    Ideal.ofBits .f32 0x00000000#32 + ∑ d : Fin 8, f d = sum8 f := by
  rw [Ideal.ofBits_zero_f32, zero_add, Fin.sum_univ_eight]; rfl

/-- The mixture in the other spelling: maximum from `−∞`, sum from `0`, quotient by the word of `8`. -/
theorem mix_of_folds (f : Fin 8 → EReal) :
    Ideal.div ((Finset.univ : Finset (Fin 8)).fold max (Ideal.ofBits .f32 0xFF800000#32) f * Ideal.ofBits .f32 0x41100000#32
        - (Ideal.ofBits .f32 0x00000000#32 + ∑ d : Fin 8, f d)) (Ideal.ofBits .f32 0x41000000#32)
      = mix f := by
  rw [div_eight, fold_max8, sum_eq_sum8]; rfl

end Cert.Mixture

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelBlock.lean ====
/-
  What the kernel body leaves in its output block, entry by entry.

  At one grid point the body holds a block of 512 rows of `x` and, for each of the eight centre slots `d`, a slab of
  256 centres (the centres of 256 consecutive output units in slot `d`). For each slab it forms the 512 × 256 weights
  `exp (((‖x_p‖² − 2 · x_p·c_q) + ‖c_q‖²) · (−½))` — the row norms as a column, the centre norms as a row, the cross
  terms as one matrix product with the slab transposed — and folds the eight weight matrices into a running maximum and
  a running sum. Entry `(p, q)` of what it stores is therefore the mixture of the eight weights of row `p` against
  the centres `q` of the eight slabs.
-/
import proofs.«168789_j850403524971_1_alg».proof.Proof.Gen.KernelIdeal.Frame
import proofs.«168789_j850403524971_1_alg».proof.Proof.Spec
import proofs.«168789_j850403524971_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx Idealize.ShloMosaic.Keepdims Cert.Mixture

/-! ## The matrix product of the row block with a transposed slab -/

theorem lhs_axis0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl
theorem lhs_axis1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_axis0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_axis1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

/-- Entry `(p, q)` of the product of the rows `X` with the slab `C` transposed, into the zero accumulator: the inner
    product of row `p` with centre `q` (narrowing the slab to the shorter float format is the identity here). -/
theorem cross_apply (X : FVec Ideal S512x1024 .bf16) (C : FVec Ideal S256x1024 .f32) (p : Fin 512) (q : Fin 256) :
    matmul dot_S512x1024_S1024x256_S512x256_1_0_0_1_n_n none X
        (transpose S1024x256 [1, 0] (truncf .bf16 C bitsLt_bf16_f32) transposes_S256x1024_p1_0_S1024x256)
        (constant (F := Ideal) S512x256 .f32 0x00000000#32) (ix2 p q)
      = ∑ k : Fin 1024, X (ix2 p k) * C (ix2 q k) := by
  show FloatOps.matmul _ _ _ _ _ _ = _
  rw [Ideal.matmul_constant_zero_apply,
    ← Equiv.sum_comp (ValueIdx.contrEquiv1 dot_S512x1024_S1024x256_S512x256_1_0_0_1_n_n 1024 rfl rfl).symm]
  refine Finset.sum_congr rfl fun k _ => ?_
  have hk := ValueIdx.contrEquiv1_symm_val dot_S512x1024_S1024x256_S512x256_1_0_0_1_n_n 1024 rfl rfl k
  have el : dot_S512x1024_S1024x256_S512x256_1_0_0_1_n_n.lhsIdx (ix2 p q)
      ((ValueIdx.contrEquiv1 dot_S512x1024_S1024x256_S512x256_1_0_0_1_n_n 1024 rfl rfl).symm k) = ix2 p k :=
    funext fun a => Fin.ext (by
      match a with
      | ⟨0, _⟩ => exact lhs_axis0 _ _
      | ⟨1, _⟩ => exact (lhs_axis1 _ _).trans hk)
  have er : dot_S512x1024_S1024x256_S512x256_1_0_0_1_n_n.rhsIdx (ix2 p q)
      ((ValueIdx.contrEquiv1 dot_S512x1024_S1024x256_S512x256_1_0_0_1_n_n 1024 rfl rfl).symm k) = ix2 k q :=
    funext fun a => Fin.ext (by
      match a with
      | ⟨0, _⟩ => exact (rhs_axis0 _ _).trans hk
      | ⟨1, _⟩ => exact rhs_axis1 _ _)
  rw [el, er, transpose_ix2_apply]
  rfl

/-! ## The norms -/

/-- The squared norms of the rows, as a column: entry `(p, ·)` is `∑ₖ X_p,k²`. -/
theorem rownorm_apply (X : FVec Ideal S512x1024 .f32) (hφ : FKind.Formats .f32)
    (hacc : (0x00000000#32 : BitVec 32) = FKind.add.neutral .f32 hφ) (p : Fin 512) (u : Fin 1) :
    shapeCast S512x1 (multiReduction (F := Ideal) .add [1] S512 (mulf X X) 0x00000000#32 reduces_S512x1024_S512 hφ hacc)
        shapeCasts_S512_S512x1 (ix2 p u)
      = ∑ k : Fin 1024, X (ix2 p k) * X (ix2 p k) :=
  (shapeCast_a_a1_apply _ shapeCasts_S512_S512x1 p u).trans
    (laneSum_apply (mulf X X) 0x00000000#32 reduces_S512x1024_S512 hφ hacc p)

/-- The squared norms of a slab's centres, as a row: entry `(·, q)` is `∑ₖ C_q,k²`. -/
theorem cennorm_apply (C : FVec Ideal S256x1024 .f32) (hφ : FKind.Formats .f32)
    (hacc : (0x00000000#32 : BitVec 32) = FKind.add.neutral .f32 hφ) (u : Fin 1) (q : Fin 256)
    (cr : Fin 1024 → EReal) (hC : ∀ k, C (ix2 q k) = cr k) :
    shapeCast S1x256 (multiReduction (F := Ideal) .add [1] S256 (mulf C C) 0x00000000#32 reduces_S256x1024_S256 hφ hacc)
        shapeCasts_S256_S1x256 (ix2 u q)
      = ∑ k : Fin 1024, cr k * cr k :=
  ((shapeCast_a_1a_apply _ shapeCasts_S256_S1x256 u q).trans
    (laneSum_apply (mulf C C) 0x00000000#32 reduces_S256x1024_S256 hφ hacc q)).trans
    (Finset.sum_congr rfl fun k _ => by show C (ix2 q k) * C (ix2 q k) = _; rw [hC k])

/-- Twice the cross terms at `(p, q)`. -/
theorem twice_cross_apply (X : FVec Ideal S512x1024 .bf16) (C : FVec Ideal S256x1024 .f32) (p : Fin 512) (q : Fin 256)
    (xr cr : Fin 1024 → EReal) (hX : ∀ k, X (ix2 p k) = xr k) (hC : ∀ k, C (ix2 q k) = cr k) :
    mulf (broadcast S512x256 (Scalar.ofBits (F := Ideal) .f32 0x40000000#32))
        (matmul dot_S512x1024_S1024x256_S512x256_1_0_0_1_n_n none X
          (transpose S1024x256 [1, 0] (truncf .bf16 C bitsLt_bf16_f32) transposes_S256x1024_p1_0_S1024x256)
          (constant (F := Ideal) S512x256 .f32 0x00000000#32)) (ix2 p q)
      = Ideal.ofBits .f32 0x40000000#32 * ∑ k : Fin 1024, xr k * cr k := by
  show Ideal.ofBits .f32 0x40000000#32 * _ = _
  rw [cross_apply X C p q]
  exact congrArg _ (Finset.sum_congr rfl fun k _ => by rw [hX k, hC k])

/-! ## One slab's weights -/

/-- The weight matrix of one slab at `(p, q)`, from its three ingredients however the body came by them: a column `R`
    holding the row norms, twice the cross terms `M2`, and a row `crow` holding the centre norms. -/
theorem weight_of_parts (R : FVec Ideal S512x1 .f32) (M2 : FVec Ideal S512x256 .f32) (crow : FVec Ideal S1x256 .f32)
    (p : Fin 512) (q : Fin 256) (xr cr : Fin 1024 → EReal)
    (hR : R (ix2 p (0 : Fin 1)) = ∑ k : Fin 1024, xr k * xr k)
    (hM : M2 (ix2 p q) = Ideal.ofBits .f32 0x40000000#32 * ∑ k : Fin 1024, xr k * cr k)
    (hc : crow (ix2 (0 : Fin 1) q) = ∑ k : Fin 1024, cr k * cr k) :
    exp (mulf (addf (subf (broadcastTo S512x256 R broadcasts_S512x1_S512x256) M2)
        (broadcastTo S512x256 crow broadcasts_S1x256_S512x256))
        (broadcast S512x256 (Scalar.ofBits (F := Ideal) .f32 0xBF000000#32))) (ix2 p q)
      = weight xr cr := by
  show Ideal.exp ((broadcastTo S512x256 R broadcasts_S512x1_S512x256 (ix2 p q) - M2 (ix2 p q)
      + broadcastTo S512x256 crow broadcasts_S1x256_S512x256 (ix2 p q)) * Ideal.ofBits .f32 0xBF000000#32) = _
  rw [broadcastTo_a1_ab_apply R broadcasts_S512x1_S512x256 p q, broadcastTo_1b_ab_apply crow broadcasts_S1x256_S512x256 p q,
    hR, hM, hc]
  rfl

/-- THE WEIGHTS OF ONE SLAB, as the body computes them from the row block `v0` and a loaded slab `v`: entry `(p, q)` is
    the weight of row `p` against centre `q` of the slab. -/
theorem slab_weights (v0 : Vec Ideal S512x1024 .f32) (v : Vec Ideal S1x256x1024 .f32) (hφ : FKind.Formats .f32)
    (hacc : (0x00000000#32 : BitVec 32) = FKind.add.neutral .f32 hφ) :
    exp (mulf (addf (subf (broadcastTo S512x256 (k0_pay2 v0) broadcasts_S512x1_S512x256)
          (mulf (broadcast S512x256 (Scalar.ofBits (F := Ideal) .f32 0x40000000#32))
            (matmul dot_S512x1024_S1024x256_S512x256_1_0_0_1_n_n none (k0_pay3 v0)
              (transpose S1024x256 [1, 0] (truncf .bf16 (shapeCast S256x1024 v shapeCasts_S1x256x1024_S256x1024) bitsLt_bf16_f32)
                transposes_S256x1024_p1_0_S1024x256)
              (constant (F := Ideal) S512x256 .f32 0x00000000#32))))
        (broadcastTo S512x256
          (shapeCast S1x256 (multiReduction (F := Ideal) .add [1] S256
            (mulf (shapeCast S256x1024 v shapeCasts_S1x256x1024_S256x1024) (shapeCast S256x1024 v shapeCasts_S1x256x1024_S256x1024))
            0x00000000#32 reduces_S256x1024_S256 hφ hacc) shapeCasts_S256_S1x256)
          broadcasts_S1x256_S512x256))
        (broadcast S512x256 (Scalar.ofBits (F := Ideal) .f32 0xBF000000#32)))
      = fun i => weight (fun k => v0 (ix2 (i 0) k)) (fun k => v (ix3 (0 : Fin 1) (i 1) k)) := by
  funext i
  obtain ⟨p, q, rfl⟩ : ∃ (p : Fin 512) (q : Fin 256), i = ix2 p q := ⟨i 0, i 1, eq_ix2 i⟩
  show _ = weight (fun k => v0 (ix2 p k)) (fun k => v (ix3 (0 : Fin 1) q k))
  refine weight_of_parts _ _ _ p q _ _ ?_ ?_ ?_
  · exact rownorm_apply v0 _ _ p 0
  · exact twice_cross_apply _ _ p q _ _ (fun _ => rfl) (fun k => shapeCast_1ab_ab_apply v _ q k)
  · exact cennorm_apply _ hφ hacc 0 q _ (fun k => shapeCast_1ab_ab_apply v _ q k)

/-! ## The eight slabs of the centre block -/

theorem hz2 : (![0, 0] : Fin 2 → Nat) = fun _ => 0 := funext fun a => by fin_cases a <;> rfl

/-- A load of slab `d` of the centre block reads, at `(·, q, k)`, the block at `(d, q, k)`. -/
theorem ld_slab (x1 : Vec Ideal S8x256x1024 .f32) (dn : Nat) (hd : dn < 8)
    (inb : ∀ a, (![dn, 0, 0] : Fin 3 → Nat) a + S1x256x1024.size a ≤ S8x256x1024.size a) (u : Fin 1) (q : Fin 256) (k : Fin 1024) :
    View.ld x1 (Rect.unit (s := S8x256x1024) ![dn, 0, 0] S1x256x1024.size inb) (ix3 u q k) = x1 (ix3 (⟨dn, hd⟩ : Fin 8) q k) :=
  congrArg x1 (funext fun a => Fin.ext (by
    have hu : u.val = 0 := by omega
    match a with
    | ⟨0, _⟩ => show dn + 1 * u.val = dn; omega
    | ⟨1, _⟩ => show 0 + 1 * q.val = q.val; omega
    | ⟨2, _⟩ => show 0 + 1 * k.val = k.val; omega))

/-- The weights of the row block `x0` against slab `d` of the centre block `x1`: entry `(p, q)` is the weight of row `p`
    against the centre `(d, q, ·)`. -/
def slabW (x0 : Vec Ideal S512x1024 .f32) (x1 : Vec Ideal S8x256x1024 .f32) (d : Fin 8) : FVec Ideal S512x256 .f32 :=
  fun i => weight (fun k => x0 (ix2 (i 0) k)) (fun k => x1 (ix3 d (i 1) k))

theorem slabW_of_ld (x0 : Vec Ideal S512x1024 .f32) (x1 : Vec Ideal S8x256x1024 .f32) (dn : Nat) (hd : dn < 8)
    (inb : ∀ a, (![dn, 0, 0] : Fin 3 → Nat) a + S1x256x1024.size a ≤ S8x256x1024.size a) :
    (fun i : S512x256.Idx => weight (fun k => x0 (ix2 (i 0) k))
        (fun k => View.ld x1 (Rect.unit (s := S8x256x1024) ![dn, 0, 0] S1x256x1024.size inb) (ix3 (0 : Fin 1) (i 1) k)))
      = slabW x0 x1 ⟨dn, hd⟩ :=
  funext fun i => congrArg (weight _) (funext fun k => ld_slab x1 dn hd inb 0 (i 1) k)

variable (x0 : Vec Ideal S512x1024 .f32) (x1 : Vec Ideal S8x256x1024 .f32)

/-- The eight weight matrices as the body names them: slabs 0 and 1 straight from the row block, slabs 2, 3, 5 and 7
    from the row norms and the narrowed rows it keeps, slab 4 from a slab kept apart with its norms, slab 6 from the
    centre norms and the doubled cross terms it carried over. -/
theorem slab0 : k0_pay4 x0 (View.ld x1 r0_1) = slabW x0 x1 0 :=
  (slab_weights x0 (View.ld x1 r0_1) _ _).trans (slabW_of_ld x0 x1 0 (by decide) _)
theorem slab1 : k0_pay5 x0 (View.ld x1 r0_2) = slabW x0 x1 1 :=
  (slab_weights x0 (View.ld x1 r0_2) _ _).trans (slabW_of_ld x0 x1 1 (by decide) _)
theorem slab2 : k0_pay8 (k0_pay2 x0) (k0_pay3 x0) (View.ld x1 r0_3) = slabW x0 x1 2 :=
  (slab_weights x0 (View.ld x1 r0_3) _ _).trans (slabW_of_ld x0 x1 2 (by decide) _)
theorem slab3 : k0_pay9 (k0_pay2 x0) (k0_pay3 x0) (View.ld x1 r0_4) = slabW x0 x1 3 :=
  (slab_weights x0 (View.ld x1 r0_4) _ _).trans (slabW_of_ld x0 x1 3 (by decide) _)
theorem slab4 : k0_pay14 (k0_pay2 x0) (k0_pay3 x0) (k0_pay12 (View.ld x1 r0_5)) (k0_pay13 (View.ld x1 r0_5)) = slabW x0 x1 4 :=
  (slab_weights x0 (View.ld x1 r0_5) (.inl rfl) rfl).trans (slabW_of_ld x0 x1 4 (by decide) _)
theorem slab5 : k0_pay15 (k0_pay2 x0) (k0_pay3 x0) (View.ld x1 r0_6) = slabW x0 x1 5 :=
  (slab_weights x0 (View.ld x1 r0_6) _ _).trans (slabW_of_ld x0 x1 5 (by decide) _)
theorem slab6 :
    exp (mulf (addf (subf (broadcastTo S512x256 (k0_pay2 x0) broadcasts_S512x1_S512x256) (k0_pay20 (k0_pay3 x0) (View.ld x1 r0_7)))
        (broadcastTo S512x256 (k0_pay19 (View.ld x1 r0_7)) broadcasts_S1x256_S512x256))
        (broadcast S512x256 (Scalar.ofBits (F := Ideal) .f32 0xBF000000#32))) = slabW x0 x1 6 :=
  (slab_weights x0 (View.ld x1 r0_7) _ _).trans (slabW_of_ld x0 x1 6 (by decide) _)
theorem slab7 : k0_pay15 (k0_pay2 x0) (k0_pay3 x0) (View.ld x1 r0_8) = slabW x0 x1 7 :=
  (slab_weights x0 (View.ld x1 r0_8) _ _).trans (slabW_of_ld x0 x1 7 (by decide) _)

/-- The last step of the body: the two last weight matrices join the running maximum and sum, and the mixture is taken. -/
theorem last_step (v3 : FVec Ideal S512x1 .f32) (v4 : FVec Ideal S512x1024 .bf16) (v115 v116 : FVec Ideal S512x256 .f32)
    (v121 : FVec Ideal S1x256 .f32) (v126 : FVec Ideal S512x256 .f32) (v136 : Vec Ideal S1x256x1024 .f32)
    (W6 W7 : FVec Ideal S512x256 .f32)
    (h6 : exp (mulf (addf (subf (broadcastTo S512x256 v3 broadcasts_S512x1_S512x256) v126)
        (broadcastTo S512x256 v121 broadcasts_S1x256_S512x256))
        (broadcast S512x256 (Scalar.ofBits (F := Ideal) .f32 0xBF000000#32))) = W6)
    (h7 : k0_pay15 v3 v4 v136 = W7) :
    k0_pay1 v3 v4 v115 v116 v121 v126 v136
      = mulf (subf (mulf (maximumf (maximumf v115 W6) W7) (broadcast S512x256 (Scalar.ofBits (F := Ideal) .f32 0x41100000#32)))
          (addf (addf v116 W6) W7)) (broadcast S512x256 (Scalar.ofBits (F := Ideal) .f32 0x3E000000#32)) := by
  subst h6 h7; rfl

/-- WHAT THE BODY STORES: entry `(p, q)` of the output block is the mixture of the weights of row `p` of the row block
    against the centres `(d, q, ·)` of the eight slabs. -/
theorem block_eq :
    out0_2 x0 x1 = fun i => mix fun d => weight (fun k => x0 (ix2 (i 0) k)) (fun k => x1 (ix3 d (i 1) k)) := by
  unfold out0_2
  rw [View.canon_unit_zero hz2]
  simp only [View.ld_unit_zero (S := S512x1024) hz2]
  rw [last_step _ _ _ _ _ _ _ (slabW x0 x1 6) (slabW x0 x1 7) (slab6 x0 x1) (slab7 x0 x1)]
  unfold k0_pay16 k0_pay17 k0_pay10 k0_pay11 k0_pay6 k0_pay7
  rw [slab0, slab1, slab2, slab3, slab4, slab5]
  rfl

end Cert.KernelIdeal.Block

end
-- ==== Proof.KernelValue.lean ====
/-
  From the output blocks to the whole array.

  The grid has 2 × 8 points. Point `(j, i)` takes rows `512·i … 512·i + 511` of `x`, the centres of the output units
  `256·j … 256·j + 255` in all eight slots (the centres arrive with slot and unit exchanged, a transposition done before
  the call), and writes back rows `512·i …`, columns `256·j …` of the result. So each written block is the restriction
  of one whole-array function, the sixteen blocks tile the 4096 × 512 array, and the array ends holding that function:
  the mixture of the weights of row `b` against the eight centres of unit `o`.
-/
import proofs.«168789_j850403524971_1_alg».proof.Proof.Gen.KernelIdeal.Value
import proofs.«168789_j850403524971_1_alg».proof.Proof.KernelBlock
import Idealize.ShloMosaic.Lib.StableHlo.Run

set_option maxRecDepth 16384

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.Mixture
open Idealize.ShloMosaic.Pipeline (Dat)

variable (m : (ℓ : Loc nD τ sig) → Buf (Elt Ideal) ℓ) (ρ : Dev nD → PrngReg)

/-- The result written over the centres as the call receives them, slot first: at `(b, o)` the mixture of the weights
    of row `b` against the centres `(d, o, ·)`. -/
def viaSlots (xa : S4096x1024.Idx → Elt Ideal .f32) (ct : S8x512x1024.Idx → Elt Ideal .f32) : S4096x512.Idx → Elt Ideal .f32 :=
  fun i => mix fun d => weight (fun k => xa (ix2 (i 0) k)) (fun k => ct (ix3 d (i 1) k))

/-- Over the transposed centres it is the result over the centres as given. -/
theorem viaSlots_transpose (xa : S4096x1024.Idx → Elt Ideal .f32) (cen : S512x8x1024.Idx → Elt Ideal .f32) :
    viaSlots xa (transpose S8x512x1024 [1, 0, 2] cen transposes_S512x8x1024_S8x512x1024_1_0_2) = result xa cen :=
  funext fun i => congrArg mix (funext fun d => congrArg (weight _) (funext fun k =>
    transpose_apply [1, 0, 2] cen transposes_S512x8x1024_S8x512x1024_1_0_2 (ix3 d (i 1) k) (ix3 (i 1) d k)
      (fun b => match b with | ⟨0, _⟩ => rfl | ⟨1, _⟩ => rfl | ⟨2, _⟩ => rfl)))

/-- The call's second operand is the centres with slot and unit exchanged. -/
theorem V_main_v0 (c : Dev nD) :
    (V m c main_v0 : S8x512x1024.Idx → Elt Ideal .f32)
      = transpose S8x512x1024 [1, 0, 2] (m ((c : Thread nD τ).loc main_arg1)) transposes_S512x8x1024_S8x512x1024_1_0_2 := by
  dsimp only [Gen.V, Gen.hostOps0]; after_results

/-- The index maps over the sixteen points: the row window moves with the output's rows, the centre window with the
    output's columns, and both keep their other axes whole. -/
theorem idx_facts : ∀ t : Fin cfg0.N,
    win0_0.index t (0 : Fin 2) = win0_2.index t (0 : Fin 2) ∧ win0_0.index t (1 : Fin 2) = 0
    ∧ win0_1.index t (0 : Fin 3) = 0 ∧ win0_1.index t (1 : Fin 3) = win0_2.index t (1 : Fin 2) ∧ win0_1.index t (2 : Fin 3) = 0
    ∧ win0_2.index t (0 : Fin 2) ≤ 7 ∧ win0_2.index t (1 : Fin 2) ≤ 1 :=
  (by decide +kernel : ∀ t : Fin grid0.N, _)

/-- Every one of the 8 × 2 output blocks is some point's. -/
theorem idx_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- WHAT POINT `t` WRITES BACK is block `t` of the whole-array function of the operands as the call finds them. -/
theorem flushed_eq (c : Dev nD) (t : Fin cfg0.N) :
    (dats m 0 c).flushed 2 t
      = ((cfg0.win 2).blk t).view.read (Elt Ideal) (viaSlots (V m c main_arg0) (V m c main_v0)) := by
  rw [flushed2, block_eq (iblk m c 0 t) (iblk m c 1 t)]
  obtain ⟨e0, e1, e2, e3, e4, e5, e6⟩ := idx_facts t
  funext j
  show mix _ = mix _
  refine congrArg mix (funext fun d => ?_)
  show weight _ _ = weight _ _
  refine congrArg₂ weight (funext fun k => ?_) (funext fun k => ?_)
  · show V m c main_arg0 (((cfg0.win 0).blk t).view.emb _) = V m c main_arg0 _
    refine congrArg _ (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · show V m c main_v0 (((cfg0.win 1).blk t).view.emb _) = V m c main_v0 _
    refine congrArg _ (funext fun a => Fin.ext ?_)
    match a with
    | ⟨0, _⟩ => show win0_1.index t (0 : Fin 3) * 8 + 1 * d.val = d.val; omega
    | ⟨1, _⟩ => show win0_1.index t (1 : Fin 3) * 256 + 1 * (j 1).val = win0_2.index t (1 : Fin 2) * 256 + 1 * (j 1).val; omega
    | ⟨2, _⟩ => show win0_1.index t (2 : Fin 3) * 1024 + 1 * k.val = k.val; omega

/-- An index of the array is in point `t`'s block iff each coordinate is in the block's range on its axis. -/
theorem mem_blk (t : Fin cfg0.N) (i : S4096x512.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v1).slice (win0_2.rect t)).set ↔ _
  rw [View.set_slice_whole, Rect.mem_set_unit]
  exact Iff.rfl

/-- The sixteen blocks tile the array: entry `(b, o)` lies in the block of the point with rows `b / 512`, columns `o / 256`. -/
theorem cover (i : S4096x512.Idx) : ∃ t : Fin cfg0.N, (cfg0.win 2).flush t = true ∧ i ∈ ((cfg0.win 2).blk t).view.set := by
  have hi0 : (i 0).val < 4096 := (i 0).isLt
  have hi1 : (i 1).val < 512 := (i 1).isLt
  obtain ⟨t, ht⟩ := idx_onto ⟨(i 0).val / 512, by omega⟩ ⟨(i 1).val / 256, by omega⟩
  have q0 : win0_2.index t (0 : Fin 2) = (i 0).val / 512 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- THE ARRAY after the run is the result of the two arguments. -/
theorem final (c : Dev nD) :
    (dats m 0 c).arrAt 2 cfg0.N = result (m ((c : Thread nD τ).loc main_arg0)) (m ((c : Thread nD τ).loc main_arg1)) := by
  rw [(dats m 0 c).arrAt_eq_of_cover 2 (viaSlots (V m c main_arg0) (V m c main_v0)) (fun t _ => flushed_eq m c t) cover,
    V_main_arg0, V_main_v0]
  exact viaSlots_transpose _ _

/-- The kernel's run: the result array ends at `result` of the arguments, the arguments unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  The reference's result, read at an index, is the mixture of the eight weights.

  The reference flattens the centres to 4096 rows (row `o·8 + d` is centre `d` of unit `o`), forms all 4096 × 4096
  squared distances `‖x_b‖² − 2 x_b·c_n + ‖c_n‖²`, takes `exp (−d² / 2)`, regroups the columns as 512 × 8 and reduces
  over the eight. Reading each stage at an index: column `n = o·8 + d` of row `b` only involves row `b` of `x` and the
  centre `(o, d)`, because `((b·512 + o)·8 + d) / 4096 = b`, `((b·512 + o)·8 + d) % 4096 = o·8 + d` and
  `((o·8 + d)·1024 + k)` splits back into `(o, d, k)`.
-/
import proofs.«168789_j850403524971_1_alg».proof.Proof.Gen.ReferenceIdeal.Read
import proofs.«168789_j850403524971_1_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Mixture

/-- Centre `d` of unit `o` is row `o·8 + d` of the flattened centres. -/
abbrev crow (o : Fin 512) (d : Fin 8) : Fin 4096 := ⟨o.val * 8 + d.val, by have := o.isLt; have := d.isLt; omega⟩

/-! ## Where each stage reads its operand -/

/-- Entry `(b, o, d)` of the regrouped weights is entry `(b, o·8 + d)` of the 4096 × 4096 array. -/
theorem regroup_idx (b : Fin 4096) (o : Fin 512) (d : Fin 8) : idx_main_v19 (ix3 b o d) = ix2 b (crow o d) :=
  funext fun a => Fin.ext (by
    have hb := b.isLt; have ho := o.isLt; have hd := d.isLt
    match a with
    | ⟨0, _⟩ => show ((b.val * 512 + o.val) * 8 + d.val) / 4096 = b.val; omega
    | ⟨1, _⟩ => show ((b.val * 512 + o.val) * 8 + d.val) % 4096 = o.val * 8 + d.val; omega)

/-- Entry `(o·8 + d, k)` of the flattened centres is `centers[o, d, k]`. -/
theorem flatten_idx (o : Fin 512) (d : Fin 8) (k : Fin 1024) : idx_main_v0 (ix2 (crow o d) k) = ix3 o d k :=
  funext fun a => Fin.ext (by
    have ho := o.isLt; have hd := d.isLt; have hk := k.isLt
    match a with
    | ⟨0, _⟩ => show ((o.val * 8 + d.val) * 1024 + k.val) / 8192 = o.val; omega
    | ⟨1, _⟩ => show ((o.val * 8 + d.val) * 1024 + k.val) / 1024 % 8 = d.val; omega
    | ⟨2, _⟩ => show ((o.val * 8 + d.val) * 1024 + k.val) % 1024 = k.val; omega)

theorem rowcol_idx (b n : Fin 4096) : idx_main_v11 (ix2 b n) = ix2 b (0 : Fin 1) :=
  funext fun a => Fin.ext (by match a with | ⟨0, _⟩ => rfl | ⟨1, _⟩ => rfl)
theorem col_idx (b : Fin 4096) (u : Fin 1) : idx_main_v3 (ix2 b u) = ix1 b :=
  funext fun a => Fin.ext (by match a with | ⟨0, _⟩ => rfl)
theorem rowsum_idx (b : Fin 4096) (k : Fin 1024) : idx_main_v2 (ix1 b) k = ix2 b k :=
  funext fun a => Fin.ext (by match a with | ⟨0, _⟩ => rfl | ⟨1, _⟩ => rfl)
theorem dot_lhs_idx (b n : Fin 4096) (k : Fin 1024) : lidx_main_v8 (ix2 b n) k = ix2 b k :=
  funext fun a => Fin.ext (by match a with | ⟨0, _⟩ => rfl | ⟨1, _⟩ => rfl)
theorem dot_rhs_idx (b n : Fin 4096) (k : Fin 1024) : ridx_main_v8 (ix2 b n) k = ix2 k n :=
  funext fun a => Fin.ext (by match a with | ⟨0, _⟩ => rfl | ⟨1, _⟩ => rfl)
theorem transpose_idx (k : Fin 1024) (n : Fin 4096) : idx_main_v7 (ix2 k n) = ix2 n k :=
  funext fun a => Fin.ext (by match a with | ⟨0, _⟩ => rfl | ⟨1, _⟩ => rfl)
theorem colrow_idx (b n : Fin 4096) : idx_main_v13 (ix2 b n) = ix2 (0 : Fin 1) n :=
  funext fun a => Fin.ext (by match a with | ⟨0, _⟩ => rfl | ⟨1, _⟩ => rfl)
theorem row_idx (u : Fin 1) (n : Fin 4096) : idx_main_v6 (ix2 u n) = ix1 n :=
  funext fun a => Fin.ext (by match a with | ⟨0, _⟩ => rfl)
theorem censum_idx (n : Fin 4096) (k : Fin 1024) : idx_main_v5 (ix1 n) k = ix2 n k :=
  funext fun a => Fin.ext (by match a with | ⟨0, _⟩ => rfl | ⟨1, _⟩ => rfl)
theorem group_idx (b : Fin 4096) (o : Fin 512) (d : Fin 8) : idx_main_v23 (ix2 b o) d = ix3 b o d :=
  funext fun a => Fin.ext (by match a with | ⟨0, _⟩ => rfl | ⟨1, _⟩ => rfl | ⟨2, _⟩ => rfl)

/-! ## One weight, then the mixture -/

variable (x0 : (⟨S4096x1024, .f32⟩ : BufTy).Contents (Elt Ideal)) (x1 : (⟨S512x8x1024, .f32⟩ : BufTy).Contents (Elt Ideal))

/-- Entry `(b, o, d)` of the regrouped weights is the weight of row `b` against centre `(o, d)`. -/
theorem centre_weight (b : Fin 4096) (o : Fin 512) (d : Fin 8) :
    val_main_v19 (F := Ideal) x0 x1 (ix3 b o d) = weight (fun k => x0 (ix2 b k)) (fun k => x1 (ix3 o d k)) := by
  rw [val_main_v19_apply, regroup_idx, val_main_v18_apply, val_main_v17_apply, val_main_v15_apply, val_main_v16_apply,
    val_main_cst_2_apply, val_main_v14_apply, val_main_v12_apply, val_main_v13_apply, colrow_idx, val_main_v6_apply, row_idx,
    val_main_v5_apply, val_main_cst_0_apply, val_main_v11_apply, rowcol_idx, val_main_v3_apply, col_idx, val_main_v2_apply,
    val_main_cst_apply, val_main_v10_apply, val_main_v9_apply, val_main_cst_1_apply, val_main_v8_apply]
  simp only [censum_idx, rowsum_idx, dot_lhs_idx, dot_rhs_idx, val_main_v4_apply, val_main_v1_apply, val_main_v7_apply,
    transpose_idx, val_main_v0_apply, flatten_idx, Ideal.hostUnary_exp_def, Ideal.hostDivf_def, Ideal.hostNegf_def,
    Ideal.negf_def, Ideal.addf_def, Ideal.subf_def, Ideal.mulf_def, Ideal.ofBits_def]
  exact weight_of_neg_div _ _

/-- The reduced index `(b, o)` with centre `d` put back on the reduced axis is `(b, o, d)`. -/
theorem lift_group (h : S4096x512x8.Reduces [2] S4096x512) (b : Fin 4096) (o : Fin 512) (d : Fin (S4096x512x8.size 2)) :
    h.lift (ix2 b o) d = ix3 b o (⟨d.val, d.isLt⟩ : Fin 8) := by
  funext a; apply Fin.ext
  fin_cases a <;> rfl

/-- A maximum over the centre axis taken from `−∞`, at `(b, o)`, is the fold over the eight entries `(b, o, d)`. -/
theorem max_over_centres (y : FVec Ideal S4096x512x8 .f32) (b : Fin 4096) (o : Fin 512) :
    Host.reduce FloatOps.maximumf y (constant (F := Ideal) S_ .f32 0xFF800000#32) reducesTo_S4096x512x8_S4096x512_d2 h_S_ (ix2 b o)
      = (Finset.univ : Finset (Fin 8)).fold max (Ideal.ofBits .f32 0xFF800000#32) (fun d => y (ix3 b o d)) := by
  have h : S4096x512x8.Reduces [2] S4096x512 := by decide
  refine (Host.reduce_eq_fold_single FloatOps.maximumf y _ reducesTo_S4096x512x8_S4096x512_d2 h h_S_ (ix2 b o)).trans ?_
  have hf : (y ∘ h.lift (ix2 b o)) = fun d : Fin 8 => y (ix3 b o d) := funext fun d => congrArg y (lift_group h b o d)
  exact congrArg (fun f => Finset.fold max (Ideal.ofBits .f32 0xFF800000#32) f (Finset.univ : Finset (Fin 8))) hf

/-- The maximum stage at `(b, o)`: the fold of the eight weights from `−∞`. -/
theorem max_stage (b : Fin 4096) (o : Fin 512) :
    val_main_v20 (F := Ideal) x0 x1 (ix2 b o)
      = (Finset.univ : Finset (Fin 8)).fold max (Ideal.ofBits .f32 0xFF800000#32)
          (fun d => weight (fun k => x0 (ix2 b k)) (fun k => x1 (ix3 o d k))) :=
  (max_over_centres (val_main_v19 (F := Ideal) x0 x1) b o).trans
    (congrArg (fun f => Finset.fold max (Ideal.ofBits .f32 0xFF800000#32) f (Finset.univ : Finset (Fin 8)))
      (funext fun d => centre_weight x0 x1 b o d))

/-- THE REFERENCE'S RESULT is the mixture, index by index. -/
theorem result_eq : val_main_v26 (F := Ideal) x0 x1 = result x0 x1 := by
  funext i
  obtain ⟨b, o, rfl⟩ : ∃ (b : Fin 4096) (o : Fin 512), i = ix2 b o := ⟨i 0, i 1, eq_ix2 i⟩
  rw [val_main_v26_apply, val_main_v25_apply, val_main_cst_6_apply, val_main_v24_apply, val_main_v22_apply, val_main_v21_apply,
    val_main_cst_4_apply, val_main_v23_apply, val_main_cst_5_apply, max_stage]
  simp only [group_idx, centre_weight, Ideal.hostDivf_def, Ideal.subf_def, Ideal.mulf_def, Ideal.ofBits_def]
  exact mix_of_folds _

end Cert.ReferenceIdeal.RefValue

end
-- ==== Proof.lean ====
/-
  A Gaussian mixture layer against its plain reference, over the extended reals.

  Inputs: `x` (4096 rows of 1024 numbers) and `centers` (512 output units, eight centres each, 1024 numbers a centre).
  For row `b` and unit `o` let `p_d = exp (−½ · ‖x_b − c_{o,d}‖²)`, the squared distance expanded as
  `‖x_b‖² − 2 x_b·c_{o,d} + ‖c_{o,d}‖²`; the result at `(b, o)` is `(9 · max_d p_d − ∑_d p_d) / 8`.

  The kernel tiles the result in sixteen 512 × 256 blocks; in each it takes the eight centre slots one after the other,
  gets the cross terms of a slot as one matrix product and folds the weights into a running maximum and sum
  (Proof/KernelBlock.lean: one block entry by entry; Proof/KernelValue.lean: the blocks tile the array). The reference
  flattens the centres to 4096 rows, forms every squared distance at once, regroups the columns by eight and reduces
  (Proof/RefValue.lean). Both are the one function `Cert.Mixture.result` (Proof/Spec.lean): folding a maximum from `−∞`
  and a sum from `0` is the left fold, `−y / 2 = y · (−½)` and `y / 8 = y · ⅛` at every extended real, so the equality
  needs nothing of the inputs. The kernel's idealization rewrote no operation, so there is nothing to preserve; the
  three programs run and leave their arguments alone by their generated frames and the reference's generated run.
-/
import proofs.«168789_j850403524971_1_alg».proof.Defs
import proofs.«168789_j850403524971_1_alg».proof.Proof.Gen.Kernel
import proofs.«168789_j850403524971_1_alg».proof.Proof.Gen.Kernel.Skeleton
import proofs.«168789_j850403524971_1_alg».proof.Proof.Gen.Kernel.Launch
import proofs.«168789_j850403524971_1_alg».proof.Proof.Gen.Kernel.Points
import proofs.«168789_j850403524971_1_alg».proof.Proof.Gen.Kernel.Frame
import proofs.«168789_j850403524971_1_alg».proof.Proof.Gen.KernelIdeal
import proofs.«168789_j850403524971_1_alg».proof.Proof.Gen.KernelIdeal.Skeleton
import proofs.«168789_j850403524971_1_alg».proof.Proof.Gen.KernelIdeal.Launch
import proofs.«168789_j850403524971_1_alg».proof.Proof.Gen.KernelIdeal.Points
import proofs.«168789_j850403524971_1_alg».proof.Proof.Gen.KernelIdeal.Frame
import proofs.«168789_j850403524971_1_alg».proof.Proof.Gen.ReferenceIdeal
import proofs.«168789_j850403524971_1_alg».proof.Proof.Gen.Pre_finite_inputs
import proofs.«168789_j850403524971_1_alg».proof.Proof.Gen.KernelIdeal.Value
import proofs.«168789_j850403524971_1_alg».proof.Proof.Gen.ReferenceIdeal.Run
import proofs.«168789_j850403524971_1_alg».proof.Proof.Gen.ReferenceIdeal.Read
import proofs.«168789_j850403524971_1_alg».proof.Proof.KernelValue
import proofs.«168789_j850403524971_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments alone: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the mixture of the Gaussian weights
    (`Cert.KernelIdeal.Whole.run`) and so does the reference's (`Cert.ReferenceIdeal.RefValue.result_eq` over its run). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
